-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x64 : S_.BroadcastsInDim S128x64 (![] : Fin 0 → Fin S128x64.rank)
  reducesTo_S128x64_S_d0_1 : S128x64.ReducesTo [0, 1] S_
  bcast_S_S64x16 : S_.BroadcastsInDim S64x16 (![] : Fin 0 → Fin S64x16.rank)
  reducesTo_S64x16_S_d0_1 : S64x16.ReducesTo [0, 1] S_

variable [Facts]

def fn_part1 {F : FTy → Type} [FloatOps F] (main_arg6 : FVec F S64x16 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64x16 .f32 := Host.absf main_arg6
  let main_cst_6 : FVec F S_ .f32 := constant S_ .f32 0x7F800000#32
  let main_v20 : FVec F S64x16 .f32 := broadcastInDim S64x16 ![] bcast_S_S64x16 main_cst_6
  let main_v21 : IVec S64x16 1 := cmpf .olt main_v19 main_v20
  let main_c_7 : IVec S_ 1 := constantI S_ 1 1#1
  let main_v22 : IVec S_ 1 := (fun x v => Host.reduce IntOp.andi x v reducesTo_S64x16_S_d0_1 h_S_) main_v21 main_c_7
  let main_v23 : IVec S_ 1 := andi main_v18 main_v22
  main_v23

def fn {F : FTy → Type} [FloatOps F] (main_arg0 : FVec F S100000x128 .f32) (main_arg1 : IVec S2x1600000 32) (main_arg2 : IVec S2x1600000 32) (main_arg3 : FVec F S1600000 .f32) (main_arg4 : FVec F S1600000 .f32) (main_arg5 : FVec F S128x64 .f32) (main_arg6 : FVec F S64x16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000x64 : Shape := ⟨2, ![100000, 64]⟩
abbrev S10000x128 : Shape := ⟨2, ![10000, 128]⟩
abbrev S10000x64 : Shape := ⟨2, ![10000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S10000x16 : Shape := ⟨2, ![10000, 16]⟩
abbrev S1600000x16 : Shape := ⟨2, ![1600000, 16]⟩

abbrev nBuf : Space → Nat
  | .hbm => 49
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x1600000, .i32⟩
  | .hbm, ⟨3, _⟩ => ⟨S1600000, .f32⟩
  | .hbm, ⟨4, _⟩ => ⟨S1600000, .f32⟩
  | .hbm, ⟨5, _⟩ => ⟨S128x64, .f32⟩
  | .hbm, ⟨6, _⟩ => ⟨S64x16, .f32⟩
  | .hbm, ⟨7, _⟩ => ⟨S100000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S100000x16, .f32⟩
  | .hbm, ⟨29, _⟩ => ⟨S1x1600000, .i32⟩
  | .hbm, ⟨30, _⟩ => ⟨S1600000, .i32⟩
  | .hbm, ⟨31, _⟩ => ⟨S1x1600000, .i32⟩
  | .hbm, ⟨32, _⟩ => ⟨S1600000, .i32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x16, .f32⟩
  | .hbm, ⟨42, _⟩ => ⟨S1600000x1, .f32⟩
  | .hbm, ⟨43, _⟩ => ⟨S1600000x16, .f32⟩
  | .hbm, ⟨44, _⟩ => ⟨S1600000x16, .f32⟩
  | .hbm, ⟨45, _⟩ => ⟨S_, .f32⟩
  | .hbm, ⟨46, _⟩ => ⟨S100000x16, .f32⟩
  | .hbm, ⟨47, _⟩ => ⟨S1600000x1, .i32⟩
  | .hbm, ⟨48, _⟩ => ⟨S100000x16, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64x16, .f32⟩
  | .local _ .vmem, ⟨8, _⟩ => ⟨S10000x16, .f32⟩
  | .local _ .vmem, ⟨9, _⟩ => ⟨S10000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_c_1 : Ref sig .tc := ⟨.hbm, 33, rfl⟩
abbrev main_v23 : Ref sig .tc := ⟨.hbm, 34, rfl⟩
abbrev main_v24 : Ref sig .tc := ⟨.hbm, 35, rfl⟩
abbrev main_c_2 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S10000x64_S10000x64 : S10000x64.ShapeCasts S10000x64
  inb_S64x16_S64x16_0_0 : ∀ a, (![0, 0] : Fin 2 → Nat) a + S64x16.size a ≤ S64x16.size a
  h_S64x16 : 0 < S64x16.numel
  inb_S10000x16_S10000x16_0_0 : ∀ a, (![0, 0] : Fin 2 → Nat) a + S10000x16.size a ≤ S10000x16.size a
  h_S10000x16 : 0 < S10000x16.numel
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x16_S10000x16_1_0_0_1_n_n_wf : DotDims.WF S10000x64 S64x16 S10000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x16.size a ≤ S64x16.size a
  hwx1_1 : ∀ i : grid1.Coords, EltTy.bits .f32 = 32 ∨ (Rect.block (s := S64x16) S64x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x16.size a ≤ S100000x16.size a
  hwx1_2 : ∀ i : grid1.Coords, EltTy.bits .f32 = 32 ∨ (Rect.block (s := S100000x16) S10000x16.size (cc1_transform_2 i) (hinb1_2 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v17) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S64x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v18) S10000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x64 : Shape := ⟨2, ![128, 64]⟩
abbrev S64x16 : Shape := ⟨2, ![64, 16]⟩
abbrev S100000x64 : Shape := ⟨2, ![100000, 64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S100000x16 : Shape := ⟨2, ![100000, 16]⟩
abbrev S1600000x16 : Shape := ⟨2, ![1600000, 16]⟩

abbrev nBuf : Space → Nat
  | .hbm => 52
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S2x1600000, .i32⟩
  | .hbm, ⟨3, _⟩ => ⟨S1600000, .f32⟩
  | .hbm, ⟨4, _⟩ => ⟨S1600000, .f32⟩
  | .hbm, ⟨5, _⟩ => ⟨S128x64, .f32⟩
  | .hbm, ⟨6, _⟩ => ⟨S64x16, .f32⟩
  | .hbm, ⟨7, _⟩ => ⟨S100000x64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x64, .f32⟩
  | .hbm, ⟨21, _⟩ => ⟨S1600000x1, .f32⟩
  | .hbm, ⟨22, _⟩ => ⟨S1600000x64, .f32⟩
  | .hbm, ⟨23, _⟩ => ⟨S1600000x64, .f32⟩
  | .hbm, ⟨24, _⟩ => ⟨S_, .f32⟩
  | .hbm, ⟨25, _⟩ => ⟨S100000x64, .f32⟩
  | .hbm, ⟨26, _⟩ => ⟨S1600000x1, .i32⟩
  | .hbm, ⟨27, _⟩ => ⟨S100000x64, .f32⟩
  | .hbm, ⟨28, _⟩ => ⟨S_, .f32⟩
  | .hbm, ⟨29, _⟩ => ⟨S100000x64, .f32⟩
  | .hbm, ⟨30, _⟩ => ⟨S100000x64, .f32⟩
  | .hbm, ⟨31, _⟩ => ⟨S100000x16, .f32⟩
  | .hbm, ⟨32, _⟩ => ⟨S1x1600000, .i32⟩
  | .hbm, ⟨33, _⟩ => ⟨S1600000, .i32⟩
  | .hbm, ⟨34, _⟩ => ⟨S1x1600000, .i32⟩
  | .hbm, ⟨35, _⟩ => ⟨S1600000, .i32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x16, .f32⟩
  | .hbm, ⟨45, _⟩ => ⟨S1600000x1, .f32⟩
  | .hbm, ⟨46, _⟩ => ⟨S1600000x16, .f32⟩
  | .hbm, ⟨47, _⟩ => ⟨S1600000x16, .f32⟩
  | .hbm, ⟨48, _⟩ => ⟨S_, .f32⟩
  | .hbm, ⟨49, _⟩ => ⟨S100000x16, .f32⟩
  | .hbm, ⟨50, _⟩ => ⟨S1600000x1, .i32⟩
  | .hbm, ⟨51, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_cst : Ref sig .tc := ⟨.hbm, 28, rfl⟩
abbrev main_call0_v0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.LibPlainDot.lean ====
/-
  A plain matrix product `[M, K] × [K, N] → [M, N]` read at one element, at the ideal values, at any extents.

  Whether it is a kernel's `tpu.matmul` into a zero accumulator or a host program's `dot_general`, with the left
  operand contracted along its second axis and the right one along its first and no batch axis, the element
  `(p, q)` of the product is `∑ k, lhs (p, k) · rhs (k, q)` on the extended reals, `k` running over the `K`
  positions of the contracted axis. The dimension numbers enter through equations on their lists, so that a
  program's own record (whose lists are literals) supplies each by `rfl`.
-/
import Idealize.ShloMosaic.Lib.ValueIdx
import Idealize.ShloMosaic.PureOps.Ideal.Laws

open scoped BigOperators

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Among equal positions an index has equal coordinates (the positions here are sums of list lengths). -/
private theorem val_congr {s : Shape} (j : s.Idx) (a b : Nat) (ha : a < s.rank) (hb : b < s.rank) (h : a = b) :
    (j ⟨a, ha⟩).val = (j ⟨b, hb⟩).val := by subst h; rfl

/-- The left operand's row is the result's row. -/
theorem lhs_row (hlb : d.lhsBatch = []) (hln : d.lhsNonContracting = [0]) (j : (⟨2, ![M, N]⟩ : Shape).Idx)
    (k : d.contr.Idx) : (d.lhsIdx j k 0).val = (j 0).val := by
  unfold DotDims.lhsIdx
  rw [dif_neg (by rw [hlb]; exact List.not_mem_nil),
    dif_pos (show (0 : Fin 2) ∈ d.lhsNonContracting by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hlb : d.lhsBatch = []) (hrb : d.rhsBatch = []) (hln : d.lhsNonContracting = [0])
    (hrn : d.rhsNonContracting = [1]) (j : (⟨2, ![M, N]⟩ : Shape).Idx) (k : d.contr.Idx) :
    (d.rhsIdx j k 1).val = (j 1).val := by
  unfold DotDims.rhsIdx
  rw [dif_neg (by rw [hrb]; exact List.not_mem_nil),
    dif_pos (show (1 : Fin 2) ∈ d.rhsNonContracting by rw [hrn]; exact List.mem_singleton.mpr rfl)]
  simp only [Fin.val_cast]
  exact val_congr j _ _ _ _ (by simp [hlb, hln, hrn])

section Sum

variable (hlb : d.lhsBatch = []) (hrb : d.rhsBatch = []) (hln : d.lhsNonContracting = [0])
  (hrn : d.rhsNonContracting = [1]) (hlc : d.lhsContracting = [1]) (hrc : d.rhsContracting = [0])
  (hr : d.contr.rank = 1) (hs : d.contr.size ⟨0, by omega⟩ = K)

include hlb hrb hln hrn hlc hrc hr hs

/-- The contraction's sum, its index set re-indexed by the contracted axis's positions. -/
theorem sum_contr (lhs : (⟨2, ![M, K]⟩ : Shape).Idx → EReal) (rhs : (⟨2, ![K, N]⟩ : Shape).Idx → EReal) (p : Fin M)
    (q : Fin N) :
    ∑ k : d.contr.Idx, lhs (d.lhsIdx (ix2 p q) k) * rhs (d.rhsIdx (ix2 p q) k)
      = ∑ k : Fin K, lhs (ix2 p k) * rhs (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := by
    funext a; refine Fin.ext ?_
    match a with
    | ⟨0, _⟩ => exact lhs_row d hlb hln _ _
    | ⟨1, _⟩ => exact (lhs_col d hlc _ _).trans hk
  have er : d.rhsIdx (ix2 p q) ((contrEquiv1 d K hr hs).symm k) = ix2 k q := by
    funext a; refine Fin.ext ?_
    match a with
    | ⟨0, _⟩ => exact (rhs_row d hrc _ _).trans hk
    | ⟨1, _⟩ => exact rhs_col d hlb hrb hln hrn _ _
  rw [el, er]

/-- A kernel's `tpu.matmul` into the zero splat, at `(p, q)`. -/
theorem matmul_zero_apply {φ₁ φ₂ : FTy} (prec : Option ContractPrecision) (lhs : FVec Ideal ⟨2, ![M, K]⟩ φ₁)
    (rhs : FVec Ideal ⟨2, ![K, N]⟩ φ₂) (p : Fin M) (q : Fin N) :
    matmul d prec lhs rhs (constant ⟨2, ![M, N]⟩ .f32 0x00000000#32) (ix2 p q)
      = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact sum_contr d hlb hrb hln hrn hlc hrc hr hs lhs rhs p q

/-- A host program's `dot_general`, at `(p, q)`. -/
theorem dotGeneral_apply {φ₁ φ₂ : FTy} (prec : Option ContractPrecision) (lhs : FVec Ideal ⟨2, ![M, K]⟩ φ₁)
    (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec .single lhs rhs (ix2 p q) = _
  rw [Ideal.dotGeneral_apply]
  exact sum_contr d hlb hrb hln hrn hlc hrc hr hs lhs rhs p q

end Sum

end Idealize.ShloMosaic.PlainDot
-- ==== Proof.Dense.lean ====
/-
  The two dense layers, each as ONE function of whole arrays, and what one grid point of each kernel computes.

  Layer one is the plain product `x · W`: element `(p, q)` is `∑ k, x (p, k) · W (k, q)`. Layer two applies the
  rectifier first: element `(p, q)` is `∑ k, max (h (p, k)) 0 · W (k, q)`. At the ideal values a change of float
  format is the identity and a matrix product into a zero accumulator is that sum, so the value a kernel body
  stores for a block of rows is the same sum over the block's own rows.
-/
import proofs.«127709_j90993177133180_1_alg».proof.Proof.Gen.KernelIdeal.Skeleton
import proofs.«127709_j90993177133180_1_alg».proof.Proof.LibPlainDot
import Idealize.ShloMosaic.Lib.ValueIdx
import Idealize.ShloMosaic.Lib.Pipeline.Value

noncomputable section

open scoped BigOperators

namespace Cert.KernelIdeal.Dense

open Cert.KernelIdeal Cert.KernelIdeal.Gen Idealize.ShloMosaic Idealize.ShloMosaic.ValueIdx

/-- The product of an `M × K` array with a `K × N` array: row `p` of the first against column `q` of the second. -/
def lin {M K N : Nat} (a : (⟨2, ![M, K]⟩ : Shape).Idx → EReal) (b : (⟨2, ![K, N]⟩ : Shape).Idx → EReal) :
    (⟨2, ![M, N]⟩ : Shape).Idx → EReal :=
  fun j => ∑ k : Fin K, a (ix2 (j 0) k) * b (ix2 k (j 1))

/-- The same product with the rectifier `max · 0` applied to the left array first (the zero is the float word 0). -/
def reluLin {M K N : Nat} (a : (⟨2, ![M, K]⟩ : Shape).Idx → EReal) (b : (⟨2, ![K, N]⟩ : Shape).Idx → EReal) :
    (⟨2, ![M, N]⟩ : Shape).Idx → EReal :=
  fun j => ∑ k : Fin K, max (a (ix2 (j 0) k)) (Ideal.ofBits .f32 0x00000000#32) * b (ix2 k (j 1))

theorem lin_apply {M K N : Nat} (a : (⟨2, ![M, K]⟩ : Shape).Idx → EReal) (b : (⟨2, ![K, N]⟩ : Shape).Idx → EReal)
    (p : Fin M) (q : Fin N) : lin a b (ix2 p q) = ∑ k : Fin K, a (ix2 p k) * b (ix2 k q) := rfl

theorem reluLin_apply {M K N : Nat} (a : (⟨2, ![M, K]⟩ : Shape).Idx → EReal) (b : (⟨2, ![K, N]⟩ : Shape).Idx → EReal)
    (p : Fin M) (q : Fin N) :
    reluLin a b (ix2 p q) = ∑ k : Fin K, max (a (ix2 p k)) (Ideal.ofBits .f32 0x00000000#32) * b (ix2 k q) := rfl

/-- What the first kernel stores for a block of 10000 rows: the rows' products with the weights. -/
theorem pay0_eq (x0 : Vec Ideal S10000x128 .f32) (x1 : Vec Ideal S128x64 .f32) :
    k0_pay1 (F := Ideal) x0 x1 = lin (M := 10000) (K := 128) (N := 64) x0 x1 := by
  funext j
  obtain ⟨p, q, rfl⟩ : ∃ (p : Fin 10000) (q : Fin 64), j = ix2 p q := ⟨j 0, j 1, eq_ix2 j⟩
  unfold k0_pay1
  exact PlainDot.matmul_zero_apply dot_S10000x128_S128x64_S10000x64_1_0_0_1_n_n rfl rfl rfl rfl rfl rfl rfl rfl
    none _ _ p q

/-- What the second kernel stores for a block of 10000 rows: the rectified rows' products with the weights. -/
theorem pay1_eq (x0 : Vec Ideal S10000x64 .f32) (x1 : Vec Ideal S64x16 .f32) :
    k1_pay1 (F := Ideal) x0 x1 = reluLin (M := 10000) (K := 64) (N := 16) x0 x1 := by
  funext j
  obtain ⟨p, q, rfl⟩ : ∃ (p : Fin 10000) (q : Fin 16), j = ix2 p q := ⟨j 0, j 1, eq_ix2 j⟩
  unfold k1_pay1
  refine (PlainDot.matmul_zero_apply dot_S10000x64_S64x16_S10000x16_1_0_0_1_n_n rfl rfl rfl rfl rfl rfl rfl rfl
    none _ _ p q).trans ?_
  rw [shapeCast_self]
  rfl

end Cert.KernelIdeal.Dense

end
-- ==== Proof.Arrays.lean ====
/-
  What each kernel leaves in its output array, as one function of the arrays it finds when it is entered.

  Grid point `t` of either kernel reads rows `10000·t … 10000·t + 9999` of its left operand and the whole right
  operand, and writes the same rows of the output; the ten points' row blocks tile the 100000 rows. A row of a
  product depends only on the same row of the left operand, so the block a point writes is that block of the
  whole-array product, and the array ends holding the product: `lin` for the first kernel, `reluLin` for the second.
-/
import proofs.«127709_j90993177133180_1_alg».proof.Proof.Gen.KernelIdeal.Frame
import proofs.«127709_j90993177133180_1_alg».proof.Proof.Dense
import Idealize.ShloMosaic.Lib.Pipeline.Value

set_option maxRecDepth 16384

noncomputable section

open scoped BigOperators

namespace Cert.KernelIdeal.Arrays

open Cert.KernelIdeal Cert.KernelIdeal.Gen Cert.KernelIdeal.Dense
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero_offsets : (![0, 0] : Fin 2 → Nat) = fun _ => 0 := funext fun a => by fin_cases a <;> rfl

/-! ## Kernel one -/

/-- The node features and the first layer's weights as the first kernel finds them, at their literal types. -/
abbrev feat (c : Dev nD) : (⟨2, ![100000, 128]⟩ : Shape).Idx → EReal := V c main_arg0
abbrev wts0 (c : Dev nD) : (⟨2, ![128, 64]⟩ : Shape).Idx → EReal := V c main_arg5

/-- The block indices at point `t`: the left operand and the output move down the rows with `t`, the weights stay. -/
theorem index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of rows of the whole-array product. -/
theorem flushed0_eq (c : Dev nD) (t : Fin cfg0.N) :
    (dat0 V c).flushed 2 t = ((cfg0.win 2).blk t).view.read (Elt Ideal)
      (lin (feat V c) (wts0 V c)) := by
  show (cfg0.win 2).cut (grid0.coords t) ((dat0 V c).after 2 t) = _
  rw [after0_2]
  unfold out0_2
  rw [View.canon_unit_zero zero_offsets]
  simp only [View.ld_unit_zero (S := S10000x128) zero_offsets, View.ld_unit_zero (S := S128x64) zero_offsets]
  rw [pay0_eq]
  obtain ⟨e0, e1, e2, e3, e4, e5⟩ := index0 t
  funext j
  show (∑ k : Fin 128, feat V c (((cfg0.win 0).blk t).view.emb (ix2 (j 0) k))
      * wts0 V c (((cfg0.win 1).blk t).view.emb (ix2 k (j 1))))
    = ∑ k : Fin 128, feat V c (ix2 ((((cfg0.win 2).blk t).view.emb j) 0) k)
      * wts0 V c (ix2 k ((((cfg0.win 2).blk t).view.emb j) 1))
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 128 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  exact congr (congrArg HMul.hMul (congrArg (feat V c) h0)) (congrArg (wts0 V c) h1)

/-- An index of the output array is in point `t`'s block iff each coordinate is in the block's range on its axis. -/
theorem mem_block0 (t : Fin cfg0.N) (i : S100000x64.Idx) :
    i ∈ ((cfg0.win 2).blk t).view.set ↔ ∀ a : Fin 2, win0_2.index t a * S10000x64.size a ≤ (i a).val
      ∧ (i a).val < win0_2.index t a * S10000x64.size a + S10000x64.size a := by
  show i ∈ ((View.whole main_v0).slice (win0_2.rect t)).set ↔ _
  rw [View.set_slice_whole, Rect.mem_set_unit]
  exact Iff.rfl

/-- Every row of the output array is in some point's block: row `r` in that of point `r / 10000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := N_0
  have ht : (i 0).val / 10000 < cfg0.N := by omega
  obtain ⟨-, -, -, -, e4, e5⟩ := index0 ⟨(i 0).val / 10000, ht⟩
  refine ⟨⟨(i 0).val / 10000, ht⟩, flush0_2 _, ?_⟩
  rw [mem_block0]
  intro a
  match a with
  | ⟨0, _⟩ =>
    show win0_2.index ⟨(i 0).val / 10000, ht⟩ (0 : Fin 2) * 10000 ≤ (i 0).val
      ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val
      ∧ (i 1).val < win0_2.index ⟨(i 0).val / 10000, ht⟩ (1 : Fin 2) * 64 + 64
    rw [e5]; omega

/-- The output array after the kernel's run is the whole-array product of what the kernel found. -/
theorem out0 (c : Dev nD) : (dat0 V c).arrAt 2 cfg0.N
    = lin (feat V c) (wts0 V c) :=
  (dat0 V c).arrAt_eq_of_cover 2 _ (fun t _ => flushed0_eq V c t) cover0

/-! ## Kernel two -/

/-- The aggregated hidden features and the second layer's weights as the second kernel finds them, at their
    literal types. -/
abbrev hid (c : Dev nD) : (⟨2, ![100000, 64]⟩ : Shape).Idx → EReal := V c main_v17
abbrev wts1 (c : Dev nD) : (⟨2, ![64, 16]⟩ : Shape).Idx → EReal := V c main_arg6

/-- The block indices at point `t`: the left operand and the output move down the rows with `t`, the weights stay. -/
theorem index1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is its block of rows of the whole-array rectified product. -/
theorem flushed1_eq (c : Dev nD) (t : Fin cfg1.N) :
    (dat1 V c).flushed 2 t = ((cfg1.win 2).blk t).view.read (Elt Ideal)
      (reluLin (hid V c) (wts1 V c)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S64x16) zero_offsets]
  rw [pay1_eq]
  obtain ⟨e0, e1, e2, e3, e4, e5⟩ := index1 t
  funext j
  show (∑ k : Fin 64, max (hid V c (((cfg1.win 0).blk t).view.emb (ix2 (j 0) k))) (Ideal.ofBits .f32 0x00000000#32)
      * wts1 V c (((cfg1.win 1).blk t).view.emb (ix2 k (j 1))))
    = ∑ k : Fin 64, max (hid V c (ix2 ((((cfg1.win 2).blk t).view.emb j) 0) k)) (Ideal.ofBits .f32 0x00000000#32)
      * wts1 V c (ix2 k ((((cfg1.win 2).blk t).view.emb j) 1))
  refine Finset.sum_congr rfl fun k _ => ?_
  have h0 : ((cfg1.win 0).blk t).view.emb (ix2 (j 0) k) = ix2 ((((cfg1.win 2).blk t).view.emb j) 0) k := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * k.val = k.val; omega
  have h1 : ((cfg1.win 1).blk t).view.emb (ix2 k (j 1)) = ix2 k ((((cfg1.win 2).blk t).view.emb j) 1) := by
    funext a; apply Fin.ext
    match a with
    | ⟨0, _⟩ => show win1_1.index t (0 : Fin 2) * 64 + 1 * k.val = k.val; omega
    | ⟨1, _⟩ => show win1_1.index t (1 : Fin 2) * 16 + 1 * (j 1).val = win1_2.index t (1 : Fin 2) * 16 + 1 * (j 1).val; omega
  exact congr (congrArg HMul.hMul (congrArg (fun x => max x (Ideal.ofBits .f32 0x00000000#32)) (congrArg (hid V c) h0)))
    (congrArg (wts1 V c) h1)

/-- An index of the output array is in point `t`'s block iff each coordinate is in the block's range on its axis. -/
theorem mem_block1 (t : Fin cfg1.N) (i : S100000x16.Idx) :
    i ∈ ((cfg1.win 2).blk t).view.set ↔ ∀ a : Fin 2, win1_2.index t a * S10000x16.size a ≤ (i a).val
      ∧ (i a).val < win1_2.index t a * S10000x16.size a + S10000x16.size a := by
  show i ∈ ((View.whole main_v18).slice (win1_2.rect t)).set ↔ _
  rw [View.set_slice_whole, Rect.mem_set_unit]
  exact Iff.rfl

/-- Every row of the output array is in some point's block: row `r` in that of point `r / 10000`. -/
theorem cover1 (i : S100000x16.Idx) :
    ∃ t : Fin cfg1.N, (cfg1.win 2).flush t = true ∧ i ∈ ((cfg1.win 2).blk t).view.set := by
  have hi0 : (i 0).val < 100000 := (i 0).isLt
  have hi1 : (i 1).val < 16 := (i 1).isLt
  have hN : cfg1.N = 10 := N_1
  have ht : (i 0).val / 10000 < cfg1.N := by omega
  obtain ⟨-, -, -, -, e4, e5⟩ := index1 ⟨(i 0).val / 10000, ht⟩
  refine ⟨⟨(i 0).val / 10000, ht⟩, flush1_2 _, ?_⟩
  rw [mem_block1]
  intro a
  match a with
  | ⟨0, _⟩ =>
    show win1_2.index ⟨(i 0).val / 10000, ht⟩ (0 : Fin 2) * 10000 ≤ (i 0).val
      ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 16 ≤ (i 1).val
      ∧ (i 1).val < win1_2.index ⟨(i 0).val / 10000, ht⟩ (1 : Fin 2) * 16 + 16
    rw [e5]; omega

/-- The output array after the second kernel's run is the rectified product of what the kernel found. -/
theorem out1 (c : Dev nD) : (dat1 V c).arrAt 2 cfg1.N = reluLin (hid V c) (wts1 V c) :=
  (dat1 V c).arrAt_eq_of_cover 2 _ (fun t _ => flushed1_eq V c t) cover1

end Cert.KernelIdeal.Arrays

end
-- ==== Proof.Edges.lean ====
/-
  One propagation step over the graph's edges, as ONE function of a node array, the edge index array and the edge
  weights.

  The edge index array has two rows of 1600000 entries: row 0 the edges' source nodes, row 1 their destination
  nodes. A step takes row `src e` of the node array for every edge `e` (a negative source index counts from the end:
  100000 is added to it), scales it by the weight of `e`, and adds it into row `dst e` of an array of zeros. Both
  programs run exactly this chain of host operations after each dense layer, so the proof never opens it: it is
  carried as the function below, applied on both sides to values shown equal.
-/
import proofs.«127709_j90993177133180_1_alg».proof.Proof.Gen.KernelIdeal

noncomputable section

namespace Cert.KernelIdeal.Edges

open Cert.KernelIdeal Cert.KernelIdeal.Facts₀ Idealize.ShloMosaic

variable {F : FTy → Type} [FloatOps F]

/-- Row 0 of the edge index array: every edge's source node. -/
def srcOf (ei : (⟨S2x1600000, .i32⟩ : BufTy).Contents (Elt F)) : (⟨S1600000, .i32⟩ : BufTy).Contents (Elt F) :=
  shapeCast S1600000 (extractStridedSlice S1x1600000 ![0, 0] ei slices_S2x1600000_S1x1600000_0_0) shapeCasts_S1x1600000_S1600000

/-- Row 1 of the edge index array: every edge's destination node. -/
def dstOf (ei : (⟨S2x1600000, .i32⟩ : BufTy).Contents (Elt F)) : (⟨S1600000, .i32⟩ : BufTy).Contents (Elt F) :=
  shapeCast S1600000 (extractStridedSlice S1x1600000 ![1, 0] ei slices_S2x1600000_S1x1600000_1_0) shapeCasts_S1x1600000_S1600000

/-- A node index below zero counts from the end: 100000 is added to it; another is kept. -/
def wrapNeg (s : (⟨S1600000, .i32⟩ : BufTy).Contents (Elt F)) : (⟨S1600000, .i32⟩ : BufTy).Contents (Elt F) :=
  select (cmpi .slt s (broadcastInDim S1600000 ![] bcast_S_S1600000 (constantI S_ 32 0#32)))
    (addi s (broadcastInDim S1600000 ![] bcast_S_S1600000 (constantI S_ 32 100000#32))) s

/-- A vector of node indices as a one-column array, the form the gather and the scatter read them in. -/
def asColumn (s : (⟨S1600000, .i32⟩ : BufTy).Contents (Elt F)) : (⟨S1600000x1, .i32⟩ : BufTy).Contents (Elt F) :=
  broadcastInDim S1600000x1 ![0] bcast_S1600000_S1600000x1_0 s

/-- One propagation step over the edges on arrays of 64 features a node: the rows of `h` at the edges' sources,
    each scaled by its edge's weight, added into a zero array at the rows of the edges' destinations. -/
def spread64 (h : (⟨S100000x64, .f32⟩ : BufTy).Contents (Elt F)) (ei : (⟨S2x1600000, .i32⟩ : BufTy).Contents (Elt F))
    (ew : (⟨S1600000, .f32⟩ : BufTy).Contents (Elt F)) : (⟨S100000x64, .f32⟩ : BufTy).Contents (Elt F) :=
  Host.scatterAdd scatter_S100000x64_S1600000x1_S1600000x64_1_0_0_1
    (broadcastInDim S100000x64 ![] bcast_S_S100000x64 (constant S_ .f32 0x00000000#32))
    (asColumn (dstOf ei))
    (mulf (Host.gather gather_S100000x64_S1600000x1_S1600000x64_1_0_n_n_0_1_164 h (asColumn (wrapNeg (srcOf ei))))
      (broadcastInDim S1600000x64 ![0, 1] bcast_S1600000x1_S1600000x64_0_1
        (broadcastInDim S1600000x1 ![0] bcast_S1600000_S1600000x1_0 ew)))

/-- One propagation step over the edges on arrays of 16 features a node: the rows of `h` at the edges' sources,
    each scaled by its edge's weight, added into a zero array at the rows of the edges' destinations. -/
def spread16 (h : (⟨S100000x16, .f32⟩ : BufTy).Contents (Elt F)) (ei : (⟨S2x1600000, .i32⟩ : BufTy).Contents (Elt F))
    (ew : (⟨S1600000, .f32⟩ : BufTy).Contents (Elt F)) : (⟨S100000x16, .f32⟩ : BufTy).Contents (Elt F) :=
  Host.scatterAdd scatter_S100000x16_S1600000x1_S1600000x16_1_0_0_1
    (broadcastInDim S100000x16 ![] bcast_S_S100000x16 (constant S_ .f32 0x00000000#32))
    (asColumn (dstOf ei))
    (mulf (Host.gather gather_S100000x16_S1600000x1_S1600000x16_1_0_n_n_0_1_116 h (asColumn (wrapNeg (srcOf ei))))
      (broadcastInDim S1600000x16 ![0, 1] bcast_S1600000x1_S1600000x16_0_1
        (broadcastInDim S1600000x1 ![0] bcast_S1600000_S1600000x1_0 ew)))

end Cert.KernelIdeal.Edges

end
-- ==== Proof.KernelValue.lean ====
/-
  The kernel program's result array as one function of the launch memory.

  The run's buffer contents at the last boundary are a fold through @main: the first kernel's output array, a stretch
  of host operations, the second kernel's output array, a second stretch. Read back at the result array, the
  second stretch is one propagation step (`spread16`) of the second kernel's output; that output is the rectified
  product (`reluLin`) of the aggregated hidden array with the second layer's weights; the hidden array is one
  propagation step (`spread64`) of the first kernel's output; and that output is the plain product (`lin`) of the
  node features with the first layer's weights. No operation and no kernel writes an argument array, so each is read
  at its launch contents.
-/
import proofs.«127709_j90993177133180_1_alg».proof.Proof.Gen.KernelIdeal.Frame
import proofs.«127709_j90993177133180_1_alg».proof.Proof.Arrays
import proofs.«127709_j90993177133180_1_alg».proof.Proof.Edges
import Idealize.ShloMosaic.Lib.StableHlo.Run

set_option maxRecDepth 16384

noncomputable section

namespace Cert.KernelIdeal.Result

open Cert.KernelIdeal Cert.KernelIdeal.Gen Cert.KernelIdeal.Dense Cert.KernelIdeal.Edges
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The two stretches of host operations, from any contents of the buffers -/

/-- The first stretch, from any contents `W`: the aggregated hidden array is one propagation step of the first
    kernel's output array, over the first edge arrays. -/
theorem after1_hidden (W : Valuation τ sig (Elt Ideal)) : StableHlo.after hostOps1 W (Proc.devRef .tc main_v17)
    = spread64 (W (Proc.devRef .tc main_v0)) (W (Proc.devRef .tc main_arg1)) (W (Proc.devRef .tc main_arg3)) := by
  after_results
  rfl

set_option maxHeartbeats 1000000 in
/-- The second stretch, from any contents `W`: the result array is one propagation step of the second kernel's output
    array, over the second edge arrays. -/
theorem after2_result (W : Valuation τ sig (Elt Ideal)) : StableHlo.after hostOps2 W (Proc.devRef .tc main_v35)
    = spread16 (W (Proc.devRef .tc main_v18)) (W (Proc.devRef .tc main_arg2)) (W (Proc.devRef .tc main_arg4)) := by
  after_results
  rfl

/-! ## The arguments at each boundary -/

/-- The first kernel writes neither the first edge index array nor the first edge weights. -/
theorem W1_arg1 (c : Dev nD) : W1 m ρ c (Proc.devRef .tc main_arg1) = (m ((c : Thread nD τ).loc main_arg1)) :=
  W1_of_ne m ρ c main_arg1 (by decide)
theorem W1_arg3 (c : Dev nD) : W1 m ρ c (Proc.devRef .tc main_arg3) = (m ((c : Thread nD τ).loc main_arg3)) :=
  W1_of_ne m ρ c main_arg3 (by decide)

/-- The second layer's weights reach the second kernel as launched: the first kernel and the first stretch write
    other buffers. -/
theorem W2_arg6 (c : Dev nD) : W2 m ρ c (Proc.devRef .tc main_arg6) = (m ((c : Thread nD τ).loc main_arg6)) :=
  (StableHlo.after_of_forall_not_mem (b := Proc.devRef .tc main_arg6) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
    (W1_of_ne m ρ c main_arg6 (by decide))

/-- The second edge arrays reach the second stretch as launched. -/
theorem W3_arg2 (c : Dev nD) : W3 m ρ c (Proc.devRef .tc main_arg2) = (m ((c : Thread nD τ).loc main_arg2)) :=
  (W3_of_ne m ρ c main_arg2 (by decide)).trans
    ((StableHlo.after_of_forall_not_mem (b := Proc.devRef .tc main_arg2) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
      (W1_of_ne m ρ c main_arg2 (by decide)))
theorem W3_arg4 (c : Dev nD) : W3 m ρ c (Proc.devRef .tc main_arg4) = (m ((c : Thread nD τ).loc main_arg4)) :=
  (W3_of_ne m ρ c main_arg4 (by decide)).trans
    ((StableHlo.after_of_forall_not_mem (b := Proc.devRef .tc main_arg4) _ _ (List.forall_iff_forall_mem.mp (by
      simp only [hostOps1, List.Forall, StableHlo.nullary_writes, StableHlo.unary_writes, StableHlo.binary_writes,
        StableHlo.ternary_writes, StableHlo.reshape_writes, Finset.mem_singleton]
      repeat' apply And.intro
      all_goals exact StableHlo.devRef_ne_of_ne (by decide)))).trans
      (W1_of_ne m ρ c main_arg4 (by decide)))

/-! ## The arrays the kernels write -/

/-- After the first kernel its output array is the product of the launched features with the launched weights. -/
theorem W1_v0 (c : Dev nD) : W1 m ρ c (Proc.devRef .tc main_v0)
    = lin (M := 100000) (K := 128) (N := 64) (m ((c : Thread nD τ).loc main_arg0)) (m ((c : Thread nD τ).loc main_arg5)) :=
  (W1_arr m ρ c 2).trans (Arrays.out0 (V0 m ρ) c)

/-- The aggregated hidden array the second kernel finds. -/
theorem W2_v17 (c : Dev nD) : W2 m ρ c (Proc.devRef .tc main_v17)
    = spread64 (lin (M := 100000) (K := 128) (N := 64) (m ((c : Thread nD τ).loc main_arg0)) (m ((c : Thread nD τ).loc main_arg5)))
        (m ((c : Thread nD τ).loc main_arg1)) (m ((c : Thread nD τ).loc main_arg3)) := by
  show StableHlo.after hostOps1 (W1 m ρ c) (Proc.devRef .tc main_v17) = _
  rw [after1_hidden, W1_v0, W1_arg1, W1_arg3]

/-- After the second kernel its output array is the rectified product of the hidden array with the launched weights. -/
theorem W3_v18 (c : Dev nD) : W3 m ρ c (Proc.devRef .tc main_v18)
    = reluLin (M := 100000) (K := 64) (N := 16)
        (spread64 (lin (M := 100000) (K := 128) (N := 64) (m ((c : Thread nD τ).loc main_arg0)) (m ((c : Thread nD τ).loc main_arg5)))
          (m ((c : Thread nD τ).loc main_arg1)) (m ((c : Thread nD τ).loc main_arg3)))
        (m ((c : Thread nD τ).loc main_arg6)) := by
  refine (W3_arr m ρ c 2).trans ((Arrays.out1 (V2 m ρ) c).trans ?_)
  show reluLin (M := 100000) (K := 64) (N := 16) (W2 m ρ c (Proc.devRef .tc main_v17)) (W2 m ρ c (Proc.devRef .tc main_arg6)) = _
  rw [W2_v17, W2_arg6]

/-! ## The result -/

/-- The result array at the last boundary, as one function of the launch memory. -/
theorem result (c : Dev nD) : W4 m ρ c (Proc.devRef .tc main_v35)
    = spread16 (reluLin (M := 100000) (K := 64) (N := 16)
        (spread64 (lin (M := 100000) (K := 128) (N := 64) (m ((c : Thread nD τ).loc main_arg0)) (m ((c : Thread nD τ).loc main_arg5)))
          (m ((c : Thread nD τ).loc main_arg1)) (m ((c : Thread nD τ).loc main_arg3)))
        (m ((c : Thread nD τ).loc main_arg6))) (m ((c : Thread nD τ).loc main_arg2)) (m ((c : Thread nD τ).loc main_arg4)) := by
  show StableHlo.after hostOps2 (W3 m ρ c) (Proc.devRef .tc main_v35) = _
  rw [after2_result, W3_v18, W3_arg2, W3_arg4]

end Cert.KernelIdeal.Result

end
-- ==== Proof.RefLayers.lean ====
/-
  The reference's result as the same composition as the kernel program's: a dense layer, a propagation step, the
  rectified dense layer, a propagation step.

  The reference computes `x · W1` and `max h 0 · W2` by the host's `dot_general`, which at the ideal values is the
  sum over the contracted axis: the whole-array functions `lin` and `reluLin`. Around them it runs the gather,
  scale and scatter-add chain that is carried as `spread64` and `spread16`; the chain's text is the same in both
  programs, so the reference's stages ARE those functions of its dense layers' results.
-/
import proofs.«127709_j90993177133180_1_alg».proof.Proof.Gen.ReferenceIdeal.Run
import proofs.«127709_j90993177133180_1_alg».proof.Proof.Gen.ReferenceIdeal.Read
import proofs.«127709_j90993177133180_1_alg».proof.Proof.Dense
import proofs.«127709_j90993177133180_1_alg».proof.Proof.Edges
import proofs.«127709_j90993177133180_1_alg».proof.Proof.LibPlainDot
import Idealize.ShloMosaic.Lib.ValueIdx

noncomputable section

namespace Cert.ReferenceIdeal.Layers

open Cert.ReferenceIdeal Cert.ReferenceIdeal.Read Idealize.ShloMosaic Idealize.ShloMosaic.ValueIdx
open Cert.KernelIdeal.Dense (lin reluLin)
open Cert.KernelIdeal.Edges (spread64 spread16)

/-- The reference's first `dot_general` is the plain product of the features with the first layer's weights. -/
theorem dense0_eq (x0 : (⟨S100000x128, .f32⟩ : BufTy).Contents (Elt Ideal)) (x5 : (⟨S128x64, .f32⟩ : BufTy).Contents (Elt Ideal)) :
    val_main_v0 (F := Ideal) x0 x5 = lin (M := 100000) (K := 128) (N := 64) x0 x5 := by
  funext j
  obtain ⟨p, q, rfl⟩ : ∃ (p : Fin 100000) (q : Fin 64), j = ix2 p q := ⟨j 0, j 1, eq_ix2 j⟩
  unfold val_main_v0
  exact PlainDot.dotGeneral_apply dot_S100000x128_S128x64_S100000x64_1_0_0_1_n_n rfl rfl rfl rfl rfl rfl rfl rfl
    none x0 x5 p q

/-- The reference's second `dot_general`, of the rectified hidden array, is the rectified product with the second
    layer's weights: the rectifier is `max` against a broadcast of the float word 0. -/
theorem dense1_eq (h : FVec Ideal S100000x64 .f32) (x6 : FVec Ideal S64x16 .f32) :
    Host.dotGeneral (F := Ideal) dot_S100000x64_S64x16_S100000x16_1_0_0_1_n_n none (maximumf h (val_main_call0_v0 (F := Ideal))) x6
      = reluLin (M := 100000) (K := 64) (N := 16) h x6 := by
  funext j
  obtain ⟨p, q, rfl⟩ : ∃ (p : Fin 100000) (q : Fin 16), j = ix2 p q := ⟨j 0, j 1, eq_ix2 j⟩
  refine (PlainDot.dotGeneral_apply dot_S100000x64_S64x16_S100000x16_1_0_0_1_n_n rfl rfl rfl rfl rfl rfl rfl rfl
    none _ x6 p q).trans ?_
  rfl

/-- The reference's result, stage by stage, is the composition the kernel program computes. -/
theorem result_eq (x0 : (⟨S100000x128, .f32⟩ : BufTy).Contents (Elt Ideal)) (x1 x2 : (⟨S2x1600000, .i32⟩ : BufTy).Contents (Elt Ideal))
    (x3 x4 : (⟨S1600000, .f32⟩ : BufTy).Contents (Elt Ideal)) (x5 : (⟨S128x64, .f32⟩ : BufTy).Contents (Elt Ideal)) (x6 : (⟨S64x16, .f32⟩ : BufTy).Contents (Elt Ideal)) :
    val_main_v36 (F := Ideal) x0 x1 x2 x3 x4 x5 x6
      = spread16 (reluLin (M := 100000) (K := 64) (N := 16)
          (spread64 (lin (M := 100000) (K := 128) (N := 64) x0 x5) x1 x3) x6) x2 x4 := by
  have e1 : val_main_v36 (F := Ideal) x0 x1 x2 x3 x4 x5 x6
      = spread16 (val_main_v19 (F := Ideal) x0 x1 x3 x5 x6) x2 x4 := rfl
  have e2 : val_main_v19 (F := Ideal) x0 x1 x3 x5 x6
      = Host.dotGeneral (F := Ideal) dot_S100000x64_S64x16_S100000x16_1_0_0_1_n_n none
          (maximumf (val_main_v17 (F := Ideal) x0 x1 x3 x5) (val_main_call0_v0 (F := Ideal))) x6 := rfl
  have e3 : val_main_v17 (F := Ideal) x0 x1 x3 x5 = spread64 (val_main_v0 (F := Ideal) x0 x5) x1 x3 := rfl
  rw [e1, e2, e3, dense0_eq, dense1_eq]

end Cert.ReferenceIdeal.Layers

end
-- ==== Proof.lean ====
/-
  A two-layer graph convolution: `out = A₂ · (max (A₁ · (x · W1)) 0 · W2)`, where `A · h` stands for one propagation
  step over a weighted edge list (row `src e` of `h`, scaled by the weight of edge `e`, added into row `dst e`).

  The kernel program computes the two dense layers `x · W1` and `max h 0 · W2` in two kernels, each over ten
  blocks of 10000 rows with the small weight matrix resident, and runs the propagation steps as host operations
  between and after them; the reference computes the dense layers by the host's `dot_general` and runs the same
  propagation steps. At the ideal values a change of float format is the identity and a matrix product, in a kernel
  into a zero accumulator or on the host, is the sum over the contracted axis, so both dense layers are the same
  whole-array functions (`lin`, `reluLin`: Proof/Dense.lean) on both sides: the kernels' row blocks tile the rows
  and a row of a product depends on the same row of the left operand only (Proof/Arrays.lean). The propagation steps
  are the same chain of operations in both programs and are carried as one function each (`spread64`, `spread16`:
  Proof/Edges.lean), never opened. So both results are
  `spread16 (reluLin (spread64 (lin x W1) edges₁ weights₁) W2) edges₂ weights₂` of the arguments
  (Proof/KernelValue.lean for the kernel program, Proof/RefLayers.lean for the reference), and no law of the
  extended reals beyond that is needed: the precondition is not used.

  The frames of the two kernel programs are the generated ones; the reference's is its generated run with the
  result dropped; the idealization rewrote no operation, so `preserves` is `True`.
-/
import proofs.«127709_j90993177133180_1_alg».proof.Defs
import proofs.«127709_j90993177133180_1_alg».proof.Proof.Gen.Kernel
import proofs.«127709_j90993177133180_1_alg».proof.Proof.Gen.Kernel.Skeleton
import proofs.«127709_j90993177133180_1_alg».proof.Proof.Gen.Kernel.Launch
import proofs.«127709_j90993177133180_1_alg».proof.Proof.Gen.Kernel.Points
import proofs.«127709_j90993177133180_1_alg».proof.Proof.Gen.Kernel.Frame
import proofs.«127709_j90993177133180_1_alg».proof.Proof.Gen.KernelIdeal
import proofs.«127709_j90993177133180_1_alg».proof.Proof.Gen.KernelIdeal.Skeleton
import proofs.«127709_j90993177133180_1_alg».proof.Proof.Gen.KernelIdeal.Launch
import proofs.«127709_j90993177133180_1_alg».proof.Proof.Gen.KernelIdeal.Points
import proofs.«127709_j90993177133180_1_alg».proof.Proof.Gen.KernelIdeal.Frame
import proofs.«127709_j90993177133180_1_alg».proof.Proof.Gen.ReferenceIdeal
import proofs.«127709_j90993177133180_1_alg».proof.Proof.Gen.ReferenceIdeal.Run
import proofs.«127709_j90993177133180_1_alg».proof.Proof.Gen.ReferenceIdeal.Read
import proofs.«127709_j90993177133180_1_alg».proof.Proof.Gen.Pre_finite_inputs
import proofs.«127709_j90993177133180_1_alg».proof.Proof.KernelRun
import proofs.«127709_j90993177133180_1_alg».proof.Proof.KernelValue
import proofs.«127709_j90993177133180_1_alg».proof.Proof.RefLayers
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The idealized reference runs and keeps its arguments: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel program's is the
    contents of its result buffer at the last boundary of its run, which is the composition of dense layers and
    propagation steps of the arguments (`Result.result`), and the reference's run ends at the same composition
    (`Layers.result_eq`). -/
theorem algebraic : Cert.algebraic_KernelIdeal_ReferenceIdeal := by
  intro m ρ m' ρ' _ hagree
  refine ⟨fun c => Cert.KernelIdeal.Gen.W4 m ρ c (Proc.devRef .tc Cert.KernelIdeal.main_v35),
    Cert.KernelIdeal.RunOut.run_out (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v36_eq, Cert.ReferenceIdeal.Layers.result_eq, a0, a1, a2, a3, a4, a5, a6]
  exact (Cert.KernelIdeal.Result.result m ρ c).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
